-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x1x128 : Shape := ⟨3, ![4, 1, 128]⟩
abbrev S1x1024x3 : Shape := ⟨3, ![1, 1024, 3]⟩
abbrev S1x2048x3 : Shape := ⟨3, ![1, 2048, 3]⟩
abbrev S1x1x128 : Shape := ⟨3, ![1, 1, 128]⟩
abbrev S1x1 : Shape := ⟨2, ![1, 1]⟩
abbrev S1024x3 : Shape := ⟨2, ![1024, 3]⟩
abbrev S2048x3 : Shape := ⟨2, ![2048, 3]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩
abbrev S1024x2048 : Shape := ⟨2, ![1024, 2048]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩

abbrev nBuf : Space → Nat
  | .hbm => 5
  | .vmem => 7
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x1x128, .f32⟩
  | .hbm, ⟨3, _⟩ => ⟨S4x1x1, .f32⟩
  | .hbm, ⟨4, _⟩ => ⟨S4, .f32⟩
  | .local _ .vmem, ⟨0, _⟩ => ⟨S1x1024x3, .f32⟩
  | .local _ .vmem, ⟨1, _⟩ => ⟨S1x1024x3, .f32⟩
  | .local _ .vmem, ⟨2, _⟩ => ⟨S1x2048x3, .f32⟩
  | .local _ .vmem, ⟨3, _⟩ => ⟨S1x2048x3, .f32⟩
  | .local _ .vmem, ⟨4, _⟩ => ⟨S1x1x128, .f32⟩
  | .local _ .vmem, ⟨5, _⟩ => ⟨S1x1x128, .f32⟩
  | .local _ .vmem, ⟨6, _⟩ => ⟨S1x1, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg1 : BitVec 32 := BitVec.ofNat 32 (i 1).val
  let c7_i32 : BitVec 32 := 7#32
  let v37 : BitVec 1 := Scalar.cmpi .eq arg1 c7_i32
  let arg2 : BitVec 32 := BitVec.ofNat 32 (i 2).val
  let c3_i32 : BitVec 32 := 3#32
  let v38 : BitVec 1 := Scalar.cmpi .eq arg2 c3_i32
  let v39 : BitVec 1 := Scalar.andi v37 v38
  let v40 : BitVec 32 := Scalar.extui v39
  let c0_i32_17 : BitVec 32 := 0#32
  let v41 : BitVec 1 := Scalar.cmpi .ne v40 c0_i32_17
  v41

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  reduces_S1024x3_S1024 : S1024x3.Reduces [1] S1024
  shapeCasts_S1024_S1024x1 : S1024.ShapeCasts S1024x1
  reduces_S2048x3_S2048 : S2048x3.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x1_S1 : S1024x1.Reduces [0] S1
  shapeCasts_S1_S1x1 : S1.ShapeCasts S1x1
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  dot_S1024x3_S2048x3_S1024x2048_1_1_0_0_n_n_wf : DotDims.WF S1024x3 S2048x3 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x3.size a ≤ S4x8192x3.size a
  hwx0_1 : ∀ i : grid0.Coords, EltTy.bits .f32 = 32 ∨ (Rect.block (s := S4x8192x3) S1x2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)

variable [Facts₀]

def dot_S1024x3_S2048x3_S1024x2048_1_1_0_0_n_n : DotDims S1024x3 S2048x3 S1024x2048 where
  lhsContracting := [1]
  rhsContracting := [1]
  lhsNonContracting := [0]
  rhsNonContracting := [0]
  lhsBatch := []
  rhsBatch := []
  wf := dot_S1024x3_S2048x3_S1024x2048_1_1_0_0_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 27
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S4x8192x8192, .f32⟩
  | .hbm, ⟨22, _⟩ => ⟨S_, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4_d1_2 : S4x8192x8192.ReducesTo [1, 2] S4
  bcast_S_S4 : S_.BroadcastsInDim S4 (![] : Fin 0 → Fin S4.rank)
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Pieces.lean ====
/-
  What the body leaves behind at a grid point, in terms of its arithmetic.

  The body keeps a one-entry running sum in a scratch cell.  At the first point of a batch it stores zero there, reads it back,
  and stores (zero + this tile's total); at every other point it stores (what the point before left + this tile's total).  At
  the last point of a batch it reads the cell once more and fills its 128-lane output block with (the cell) · 2⁻²⁶.  Each of
  these is one store covering the whole cell or block, so what is left is that store's value, with every load reading the
  whole buffer it loads from.
-/
import proofs.«118848_j45844480917997_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that neither starts nor ends a batch: the cell ends at (what it held) + (the tile's total). -/
theorem cell_B (c : Dev nD) (i : grid0.Coords) (a3 : Memref sig .tc .vmem S1x1024x3 .f32) (h3 : a3.IsWhole) (a4 : Memref sig .tc .vmem S1x2048x3 .f32) (h4 : a4.IsWhole)
    (a5 : Memref sig .tc .vmem S1x1x128 .f32) (h5 : a5.IsWhole) (a6 : Memref sig .tc .vmem S1x1 .f32) (h6 : a6.IsWhole) (hc0 : ¬cond0_0 i) (hc1 : ¬cond0_1 i)
    (x0 : Vec F S1x1024x3 .f32) (x1 : Vec F S1x2048x3 .f32) (xs0 : Vec F S1x1 .f32) :
    sout0_B_0 c i a3 h3 a4 h4 a5 h5 a6 h6 hc0 hc1 x0 x1 xs0 = k0_pay1 (k0_pay4 x0 x1 xs0) := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero hz2]
  simp only [View.readAt_eq_ld, h3.read_unread, h4.read_unread, h6.read_unread, View.ld_unit_zero (S := S1x1024x3) hz3,
    View.ld_unit_zero (S := S1x2048x3) hz3, View.ld_unit_zero (S := S1x1) hz2]

/-- The first point of a batch: the cell ends at (the zero it was reset to) + (the tile's total). -/
theorem cell_A (c : Dev nD) (i : grid0.Coords) (a3 : Memref sig .tc .vmem S1x1024x3 .f32) (h3 : a3.IsWhole) (a4 : Memref sig .tc .vmem S1x2048x3 .f32) (h4 : a4.IsWhole)
    (a5 : Memref sig .tc .vmem S1x1x128 .f32) (h5 : a5.IsWhole) (a6 : Memref sig .tc .vmem S1x1 .f32) (h6 : a6.IsWhole) (hc0 : cond0_0 i) (hc1 : ¬cond0_1 i)
    (x0 : Vec F S1x1024x3 .f32) (x1 : Vec F S1x2048x3 .f32) :
    sout0_A_0 c i a3 h3 a4 h4 a5 h5 a6 h6 hc0 hc1 x0 x1 = k0_pay1 (k0_pay4 x0 x1 (k0_pay3 (F := F))) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1x1) hz2]
  simp only [View.readAt_eq_ld, h3.read_unread, h4.read_unread, View.ld_unit_zero (S := S1x1024x3) hz3,
    View.ld_unit_zero (S := S1x2048x3) hz3, View.readCov_unit_zero (S := S1x1) _ hz2]

/-- The last point of a batch: the cell as at any later point of a batch, -/
theorem cell_C (c : Dev nD) (i : grid0.Coords) (a3 : Memref sig .tc .vmem S1x1024x3 .f32) (h3 : a3.IsWhole) (a4 : Memref sig .tc .vmem S1x2048x3 .f32) (h4 : a4.IsWhole)
    (a5 : Memref sig .tc .vmem S1x1x128 .f32) (h5 : a5.IsWhole) (a6 : Memref sig .tc .vmem S1x1 .f32) (h6 : a6.IsWhole) (hc0 : ¬cond0_0 i) (hc1 : cond0_1 i)
    (x0 : Vec F S1x1024x3 .f32) (x1 : Vec F S1x2048x3 .f32) (xs0 : Vec F S1x1 .f32) :
    sout0_C_0 c i a3 h3 a4 h4 a5 h5 a6 h6 hc0 hc1 x0 x1 xs0 = k0_pay1 (k0_pay4 x0 x1 xs0) := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h4.read_unread, h6.read_unread, View.ld_unit_zero (S := S1x1024x3) hz3,
    View.ld_unit_zero (S := S1x2048x3) hz3, View.ld_unit_zero (S := S1x1) hz2]

/-- and the output block filled from the cell just stored. -/
theorem block_C (c : Dev nD) (i : grid0.Coords) (a3 : Memref sig .tc .vmem S1x1024x3 .f32) (h3 : a3.IsWhole) (a4 : Memref sig .tc .vmem S1x2048x3 .f32) (h4 : a4.IsWhole)
    (a5 : Memref sig .tc .vmem S1x1x128 .f32) (h5 : a5.IsWhole) (a6 : Memref sig .tc .vmem S1x1 .f32) (h6 : a6.IsWhole) (hc0 : ¬cond0_0 i) (hc1 : cond0_1 i)
    (x0 : Vec F S1x1024x3 .f32) (x1 : Vec F S1x2048x3 .f32) (xs0 : Vec F S1x1 .f32) :
    out0_C_2 c i a3 h3 a4 h4 a5 h5 a6 h6 hc0 hc1 x0 x1 xs0 = k0_pay2 (k0_pay1 (k0_pay4 x0 x1 xs0)) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz3]
  simp only [View.readAt_eq_ld, h3.read_unread, h4.read_unread, h6.read_unread, View.ld_unit_zero (S := S1x1024x3) hz3,
    View.ld_unit_zero (S := S1x2048x3) hz3, View.ld_unit_zero (S := S1x1) hz2, View.readCov_unit_zero (S := S1x1) _ hz2]

end Cert.KernelIdeal.Pieces

end
-- ==== Proof.Spec.lean ====
/-
  The mean pairwise distance between two clouds of 8192 points in 3-space, for each of 4 batches, as a function of the
  two point arrays over the extended reals — and the tiling of its double sum.

  For a batch b, rows n (a point of the first cloud) and columns m (a point of the second):

      dist b n m = sqrt (max ((|p_n|² + |t_m|²) - 2 · ⟨p_n, t_m⟩) 0)

  with |p_n|² = ∑_d p(b,n,d)², ⟨p_n, t_m⟩ = ∑_d p(b,n,d) · t(b,m,d).  The total of a batch is ∑_n ∑_m dist b n m; the mean
  is the total divided by 8192² = 2²⁶.

  The total is cut into 8 × 4 tiles of 1024 rows by 2048 columns: row n = 1024·i + r, column m = 2048·j + c.  Addition of
  extended reals is commutative and associative, so the sum of the 32 tile sums — in any order — is the total.  The 32
  tiles of batch b are visited at the consecutive points 32·b + s, s < 32, tile (i, j) at s = 4·i + j.

  Multiplying by 2⁻²⁶ is dividing by 2²⁶ on every extended real.
-/
import Idealize.ShloMosaic.PureOps.Ideal.Laws
import Idealize.ShloMosaic.Lib.ValueIdx

noncomputable section

open scoped BigOperators

namespace Cert.PairDist

open Idealize.ShloMosaic Idealize.ShloMosaic.ValueIdx

/-! ## The two float words of the mean -/

/-- The word 0x4C800000 denotes 2²⁶ = 67108864. -/
theorem ofBits_two26 : Ideal.ofBits .f32 0x4C800000#32 = ((67108864 : ℝ) : EReal) := by
  simp [Ideal.ofBits, Ideal.ieee, -EReal.coe_mul]; norm_num

/-- The word 0x32800000 denotes 2⁻²⁶ = 1 / 67108864. -/
theorem ofBits_inv_two26 : Ideal.ofBits .f32 0x32800000#32 = ((1 / 67108864 : ℝ) : EReal) := by
  simp [Ideal.ofBits, Ideal.ieee, -EReal.coe_mul]; norm_num

/-- Dividing by 2²⁶ is multiplying by 2⁻²⁶, on every extended real. -/
theorem div_two26 (x : EReal) :
    Ideal.div x (Ideal.ofBits .f32 0x4C800000#32) = x * Ideal.ofBits .f32 0x32800000#32 := by
  rw [ofBits_two26, ofBits_inv_two26, Ideal.div_coe (by norm_num : (67108864 : ℝ) ≠ 0)]

/-! ## Cutting a sum over A·B positions into A blocks of B -/

theorem blk_lt {A B N a b : ℕ} (hN : A * B = N) (ha : a < A) (hb : b < B) : B * a + b < N := by
  subst hN
  calc B * a + b < B * a + B := by omega
    _ = B * (a + 1) := by ring
    _ ≤ B * A := Nat.mul_le_mul_left _ ha
    _ = A * B := Nat.mul_comm _ _

/-- A sum over N = A·B positions is the sum over the A blocks of the sums over each block's B positions. -/
theorem sum_blocks {M : Type*} [AddCommMonoid M] (A B N : ℕ) (hN : A * B = N) (g : Fin N → M) :
    ∑ k : Fin N, g k = ∑ a : Fin A, ∑ b : Fin B, g ⟨B * a.val + b.val, blk_lt hN a.isLt b.isLt⟩ := by
  subst hN
  rw [← finProdFinEquiv.sum_comp, Fintype.sum_prod_type]
  refine Finset.sum_congr rfl fun a _ => Finset.sum_congr rfl fun b _ => ?_
  refine congrArg g (Fin.ext ?_)
  show b.val + B * a.val = B * a.val + b.val
  omega

/-! ## The distance, the tiles, the total -/

/-- A point array: batch, point, coordinate. -/
abbrev Pts := (⟨3, ![4, 8192, 3]⟩ : Shape).Idx → EReal

/-- The float words 2.0 and 0.0 as the programs spell them. -/
abbrev two : EReal := Ideal.ofBits .f32 0x40000000#32
abbrev zero : EReal := Ideal.ofBits .f32 0x00000000#32

/-- The distance of point n of the first cloud from point m of the second, batch b. -/
def dist (P T : Pts) (b : Fin 4) (n m : Fin 8192) : EReal :=
  Ideal.sqrt (max (((∑ d : Fin 3, P (ix3 b n d) * P (ix3 b n d)) + (∑ d : Fin 3, T (ix3 b m d) * T (ix3 b m d)))
    - two * (∑ d : Fin 3, P (ix3 b n d) * T (ix3 b m d))) zero)

/-- The total of batch b. -/
def total (P T : Pts) (b : Fin 4) : EReal := ∑ n : Fin 8192, ∑ m : Fin 8192, dist P T b n m

/-- Row r of row tile i, column c of column tile j. -/
abbrev rowOf (i : Fin 8) (r : Fin 1024) : Fin 8192 := ⟨1024 * i.val + r.val, blk_lt (by norm_num) i.isLt r.isLt⟩
abbrev colOf (j : Fin 4) (c : Fin 2048) : Fin 8192 := ⟨2048 * j.val + c.val, blk_lt (by norm_num) j.isLt c.isLt⟩

/-- The sum over tile (i, j) of batch b. -/
def tile (P T : Pts) (b : Fin 4) (i : Fin 8) (j : Fin 4) : EReal :=
  ∑ r : Fin 1024, ∑ c : Fin 2048, dist P T b (rowOf i r) (colOf j c)

/-- The 8 × 4 tile sums add up to the total. -/
theorem sum_tiles (P T : Pts) (b : Fin 4) : ∑ i : Fin 8, ∑ j : Fin 4, tile P T b i j = total P T b := by
  unfold total tile
  rw [sum_blocks 8 1024 8192 (by norm_num) (fun n => ∑ m : Fin 8192, dist P T b n m)]
  refine Finset.sum_congr rfl fun i _ => ?_
  rw [Finset.sum_comm]
  refine Finset.sum_congr rfl fun r _ => ?_
  rw [sum_blocks 4 2048 8192 (by norm_num) (fun m => dist P T b (rowOf i r) m)]

/-- The tile visited at grid point n (any natural; a point of the grid is below 128): batch n / 32, row tile
    (n / 4) mod 8, column tile n mod 4. -/
def tileAt (P T : Pts) (n : ℕ) : EReal :=
  tile P T ⟨n / 32 % 4, Nat.mod_lt _ (by norm_num)⟩ ⟨n / 4 % 8, Nat.mod_lt _ (by norm_num)⟩ ⟨n % 4, Nat.mod_lt _ (by norm_num)⟩

/-- The 32 consecutive points of batch b visit its 32 tiles: their tile sums add up to the total. -/
theorem sum_points (P T : Pts) (b : Fin 4) :
    ∑ s ∈ Finset.range 32, tileAt P T (32 * b.val + s) = total P T b := by
  rw [← sum_tiles, Finset.sum_range, sum_blocks 8 4 32 (by norm_num) (fun s : Fin 32 => tileAt P T (32 * b.val + s.val))]
  refine Finset.sum_congr rfl fun i _ => Finset.sum_congr rfl fun j _ => ?_
  unfold tileAt
  have hb := b.isLt; have hi := i.isLt; have hj := j.isLt
  congr 1 <;> exact Fin.ext (by dsimp only; omega)

/-! ## A tile's sum from the two blocks of points it reads -/

/-- The tile sum as a function of a block of 1024 points and a block of 2048 points. -/
def blockSum (x0 : (⟨3, ![1, 1024, 3]⟩ : Shape).Idx → EReal) (x1 : (⟨3, ![1, 2048, 3]⟩ : Shape).Idx → EReal) : EReal :=
  ∑ r : Fin 1024, ∑ c : Fin 2048,
    Ideal.sqrt (max (((∑ d : Fin 3, x0 (ix3 0 r d) * x0 (ix3 0 r d)) + (∑ d : Fin 3, x1 (ix3 0 c d) * x1 (ix3 0 c d)))
      - two * (∑ d : Fin 3, x0 (ix3 0 r d) * x1 (ix3 0 c d))) zero)

/-- When the blocks are rows 1024·i … of the first cloud and rows 2048·j … of the second, batch b, it is tile (i, j). -/
theorem blockSum_eq_tile (P T : Pts) (b : Fin 4) (i : Fin 8) (j : Fin 4)
    (x0 : (⟨3, ![1, 1024, 3]⟩ : Shape).Idx → EReal) (x1 : (⟨3, ![1, 2048, 3]⟩ : Shape).Idx → EReal)
    (h0 : ∀ (r : Fin 1024) (d : Fin 3), x0 (ix3 0 r d) = P (ix3 b (rowOf i r) d))
    (h1 : ∀ (c : Fin 2048) (d : Fin 3), x1 (ix3 0 c d) = T (ix3 b (colOf j c) d)) :
    blockSum x0 x1 = tile P T b i j := by
  unfold blockSum tile dist
  simp only [h0, h1]

end Cert.PairDist

end
-- ==== Proof.LibDotRows.lean ====
/-
  A product of two arrays of rows, read at one entry.

  For dimension numbers that contract the left operand's axis 1 with the right operand's axis 1, keep the left
  operand's axis 0 and the right operand's axis 0, and batch nothing — the product  l · wᵀ  of an [n × K] array with a
  [c × K] array — the operand indices at result entry (r, v) and contraction position k are (r, k) and (v, k). So both
  the accumulate-into-zero `tpu.matmul` and the host's `dot_general` are, at the ideal values, the entry's plain sum
  ∑ q < K, l (r, q) · w (v, q)  over the shared axis: the same extended real whatever the number of rows of either
  operand. This identifies a product computed a block of the right operand's rows at a time with the whole product.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {n K c : Nat}

/-- Dimension numbers of a rows-by-rows product [n, K] × [c, K] → [n, c]: contract left axis 1 with right axis 1,
    result rows from the left operand's rows, result columns from the right operand's rows, no batch axis. -/
structure RowsRows (d : DotDims ⟨2, ![n, K]⟩ ⟨2, ![c, K]⟩ ⟨2, ![n, c]⟩) : Prop where
  lc : d.lhsContracting = [1]
  rc : d.rhsContracting = [1]
  ln : d.lhsNonContracting = [0]
  rn : d.rhsNonContracting = [0]
  lb : d.lhsBatch = []
  rb : d.rhsBatch = []

variable {d : DotDims ⟨2, ![n, K]⟩ ⟨2, ![c, K]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsRows.rank_contr (h : RowsRows d) : d.contr.rank = 1 := by rw [d.rank_contr, h.lc]; rfl

/-- The contracted axis has the shared length K. -/
theorem RowsRows.size_contr (h : RowsRows d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsRows.lhs_row (h : RowsRows d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsRows.lhs_col (h : RowsRows d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the result's column: its axis 0 is kept, and comes after the left operand's one kept
    axis among the result's axes. -/
theorem RowsRows.rhs_row (h : RowsRows d) (j : (⟨2, ![n, c]⟩ : Shape).Idx) (k : d.contr.Idx) :
    (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The right operand's column is the contraction position. -/
theorem RowsRows.rhs_col (h : RowsRows d) (j : (⟨2, ![n, c]⟩ : Shape).Idx) (k : d.contr.Idx) :
    (d.rhsIdx j k 1).val = (k ⟨0, by rw [h.rank_contr]; exact Nat.one_pos⟩).val :=
  d.rhsIdx_val_of_single h.rc j k

/-- The contraction's sum, re-indexed by the shared axis: ∑ q < K, l (r, q) · w (v, q). -/
theorem RowsRows.sum_eq (h : RowsRows d) (l : (⟨2, ![n, K]⟩ : Shape).Idx → EReal) (w : (⟨2, ![c, K]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 (j 1) q) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (result column, q)
  have e2 : d.rhsIdx j ((contrEquiv1 d K h.rank_contr h.size_contr).symm q) = ix2 (j 1) q := by
    funext a
    match a with
    | ⟨0, _⟩ => exact Fin.ext (h.rhs_row j _)
    | ⟨1, _⟩ => exact Fin.ext ((h.rhs_col j _).trans hk)
  exact congrArg₂ (· * ·) (congrArg l e1) (congrArg w e2)

/-- `tpu.matmul` into the zero accumulator, at an entry, at the ideal values (operands of any float formats). -/
theorem RowsRows.matmul_zero_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    matmul (F := Ideal) d prec l w (constant ⟨2, ![n, c]⟩ .f32 0x00000000#32) j
      = ∑ q : Fin K, l (ix2 (j 0) q) * w (ix2 (j 1) q) :=
  (Ideal.matmul_constant_zero_apply d prec l w j).trans (h.sum_eq l w j)

/-- The host's `dot_general`, at an entry, at the ideal values. -/
theorem RowsRows.dotGeneral_apply {φ₁ φ₂ : FTy} (h : RowsRows d) (prec : Option ContractPrecision)
    (l : FVec Ideal ⟨2, ![n, K]⟩ φ₁) (w : FVec Ideal ⟨2, ![c, K]⟩ φ₂) (j : (⟨2, ![n, c]⟩ : Shape).Idx) :
    Host.dotGeneral (F := Ideal) d prec l w j = ∑ q : Fin K, l (ix2 (j 0) q) * w (ix2 (j 1) q) :=
  (Ideal.dotGeneral_apply d prec .single l w j).trans (h.sum_eq l w j)

end Cert.Lib.DotRows

end
-- ==== Proof.Payload.lean ====
/-
  What one grid point adds to the running sum, as a number.

  At a grid point the body reads a block of 1024 points p (rows) and a block of 2048 points t (columns), and adds to the
  running sum the total over the 1024 × 2048 tile of

      sqrt (max ((|p_r|² + |t_c|²) - 2 · ⟨p_r, t_c⟩) 0).

  Over the extended reals a change of float format is the identity, the matrix product into a zero accumulator is the plain sum
  ∑_d p(r,d) · t(c,d), and a lane sum with neutral accumulator is the plain sum over the reduced axis; the row sums (axis 1)
  followed by the sum of the 1024 row sums (axis 0) is the double sum over the tile.  So the body's new running sum is the old
  one plus `blockSum` of the two blocks.  The last grid point of a batch also writes (running sum) · 2⁻²⁶ to all 128 lanes of
  its output block.
-/
import proofs.«118848_j45844480917997_1_alg».proof.Proof.Gen.KernelIdeal.Skeleton
import proofs.«118848_j45844480917997_1_alg».proof.Proof.Spec
import proofs.«118848_j45844480917997_1_alg».proof.Proof.LibDotRows
import Idealize.ShloMosaic.Lib.Pipeline.Value
import Idealize.ShloMosaic.Lib.ValueIdx
import Idealize.ShloMosaic.PureOps.Ideal.Laws

noncomputable section

open scoped BigOperators

namespace Cert.KernelIdeal.Pay

open Cert.KernelIdeal Idealize.ShloMosaic Idealize.ShloMosaic.ValueIdx Cert.PairDist
open Cert.KernelIdeal.Facts₀

/-- A float vector over the extended reals. -/
abbrev V (S : Shape) := FVec Ideal S .f32

/-! ## The body's arithmetic, stage by stage -/

/-- The block of 1024 points as a [1024, 3] matrix. -/
def rows3 (x0 : V S1x1024x3) : V S1024x3 := shapeCast S1024x3 x0 shapeCasts_S1x1024x3_S1024x3
/-- The block of 2048 points as a [2048, 3] matrix. -/
def cols3 (x1 : V S1x2048x3) : V S2048x3 := shapeCast S2048x3 x1 shapeCasts_S1x2048x3_S2048x3
/-- The squared norms of the rows, as a column. -/
def rowSq (v6 : V S1024x3) : V S1024x1 :=
  shapeCast S1024x1 (multiReduction .add [1] S1024 (mulf v6 v6) 0x00000000#32 reduces_S1024x3_S1024 (.inl rfl) rfl) shapeCasts_S1024_S1024x1
/-- The squared norms of the columns' points, as a row. -/
def colSq (v8 : V S2048x3) : V S1x2048 :=
  transpose S1x2048 [1, 0]
    (shapeCast S2048x1 (multiReduction .add [1] S2048 (mulf v8 v8) 0x00000000#32 reduces_S2048x3_S2048 (.inl rfl) rfl) shapeCasts_S2048_S2048x1)
    transposes_S2048x1_p1_0_S1x2048
/-- The inner products, rows against columns (through the sixteen-bit format, into a zero accumulator). -/
def cross (v6 : V S1024x3) (v8 : V S2048x3) : V S1024x2048 :=
  matmul dot_S1024x3_S2048x3_S1024x2048_1_1_0_0_n_n none (truncf .bf16 v6 bitsLt_bf16_f32) (truncf .bf16 v8 bitsLt_bf16_f32)
    (constant S1024x2048 .f32 0x00000000#32)
/-- The tile of distances. -/
def dists (p2 : V S1024x1) (t2 : V S1x2048) (cr : V S1024x2048) : V S1024x2048 :=
  sqrt (maximumf (subf (addf (broadcastTo S1024x2048 p2 broadcasts_S1024x1_S1024x2048) (broadcastTo S1024x2048 t2 broadcasts_S1x2048_S1024x2048))
      (mulf (broadcast S1024x2048 (Scalar.ofBits .f32 0x40000000#32)) cr))
    (broadcast S1024x2048 (Scalar.ofBits .f32 0x00000000#32)))
/-- The tile's total: row sums, then the sum of the row sums. -/
def tot (v27 : V S1024x2048) : V S1x1 :=
  shapeCast S1x1
    (multiReduction .add [0] S1
      (shapeCast S1024x1 (multiReduction .add [1] S1024 v27 0x00000000#32 reduces_S1024x2048_S1024 (.inl rfl) rfl) shapeCasts_S1024_S1024x1)
      0x00000000#32 reduces_S1024x1_S1 (.inl rfl) rfl)
    shapeCasts_S1_S1x1

/-- The running sum's update is the old sum plus the tile's total. -/
theorem pay4_eq (x0 : V S1x1024x3) (x1 : V S1x2048x3) (a : V S1x1) :
    Gen.k0_pay4 (F := Ideal) x0 x1 a
      = addf a (tot (dists (rowSq (rows3 x0)) (colSq (cols3 x1)) (cross (rows3 x0) (cols3 x1)))) := rfl

/-! ## Each stage at an entry -/

theorem rows3_apply (x0 : V S1x1024x3) (r : Fin 1024) (d : Fin 3) : rows3 x0 (ix2 r d) = x0 (ix3 0 r d) :=
  shapeCast_apply x0 shapeCasts_S1x1024x3_S1024x3 (ix2 r d) (ix3 0 r d) (by
    rw [Shape.rowMajor_val_three, Shape.rowMajor_val_two]
    show (0 * 1024 + r.val) * 3 + d.val = r.val * 3 + d.val
    omega)

theorem cols3_apply (x1 : V S1x2048x3) (c : Fin 2048) (d : Fin 3) : cols3 x1 (ix2 c d) = x1 (ix3 0 c d) :=
  shapeCast_apply x1 shapeCasts_S1x2048x3_S2048x3 (ix2 c d) (ix3 0 c d) (by
    rw [Shape.rowMajor_val_three, Shape.rowMajor_val_two]
    show (0 * 2048 + c.val) * 3 + d.val = c.val * 3 + d.val
    omega)

/-- A row's squared norm: the lane sum over the three coordinates. -/
theorem rowSq_apply (v6 : V S1024x3) (r : Fin 1024) : rowSq v6 (ix2 r 0) = ∑ d : Fin 3, v6 (ix2 r d) * v6 (ix2 r d) := by
  unfold rowSq
  refine (shapeCast_apply _ shapeCasts_S1024_S1024x1 (ix2 r 0) (ix1 r) (by
    rw [Shape.rowMajor_val_one, Shape.rowMajor_val_two]
    show r.val = r.val * 1 + 0
    omega)).trans ?_
  refine (Ideal.multiReduction_add_single (mulf v6 v6) 0x00000000#32 reduces_S1024x3_S1024 (.inl rfl) rfl (ix1 r)).trans ?_
  refine Finset.sum_congr rfl fun d _ => ?_
  exact congrArg (mulf v6 v6) (funext fun a => Fin.ext (by match a with | ⟨0, _⟩ => rfl | ⟨1, _⟩ => rfl))

/-- A column point's squared norm. -/
theorem colSq_apply (v8 : V S2048x3) (c : Fin 2048) : colSq v8 (ix2 0 c) = ∑ d : Fin 3, v8 (ix2 c d) * v8 (ix2 c d) := by
  unfold colSq
  refine (transpose_apply [1, 0] _ transposes_S2048x1_p1_0_S1x2048 (ix2 0 c) (ix2 c 0) (fun b => by
    match b with | ⟨0, _⟩ => rfl | ⟨1, _⟩ => rfl)).trans ?_
  refine (shapeCast_apply _ shapeCasts_S2048_S2048x1 (ix2 c 0) (ix1 c) (by
    rw [Shape.rowMajor_val_one, Shape.rowMajor_val_two]
    show c.val = c.val * 1 + 0
    omega)).trans ?_
  refine (Ideal.multiReduction_add_single (mulf v8 v8) 0x00000000#32 reduces_S2048x3_S2048 (.inl rfl) rfl (ix1 c)).trans ?_
  refine Finset.sum_congr rfl fun d _ => ?_
  exact congrArg (mulf v8 v8) (funext fun a => Fin.ext (by match a with | ⟨0, _⟩ => rfl | ⟨1, _⟩ => rfl))

/-- The product's dimension numbers are those of rows against rows. -/
theorem dot_rowsRows : Cert.Lib.DotRows.RowsRows dot_S1024x3_S2048x3_S1024x2048_1_1_0_0_n_n := ⟨rfl, rfl, rfl, rfl, rfl, rfl⟩

/-- An inner product of a row point with a column point. -/
theorem cross_apply (v6 : V S1024x3) (v8 : V S2048x3) (r : Fin 1024) (c : Fin 2048) :
    cross v6 v8 (ix2 r c) = ∑ d : Fin 3, v6 (ix2 r d) * v8 (ix2 c d) := by
  unfold cross
  exact dot_rowsRows.matmul_zero_apply none (truncf .bf16 v6 bitsLt_bf16_f32) (truncf .bf16 v8 bitsLt_bf16_f32) (ix2 r c)

/-- One distance of the tile. -/
theorem dists_apply (p2 : V S1024x1) (t2 : V S1x2048) (cr : V S1024x2048) (r : Fin 1024) (c : Fin 2048) :
    dists p2 t2 cr (ix2 r c) = Ideal.sqrt (max ((p2 (ix2 r 0) + t2 (ix2 0 c)) - two * cr (ix2 r c)) zero) := by
  have e1 : broadcastTo S1024x2048 p2 broadcasts_S1024x1_S1024x2048 (ix2 r c) = p2 (ix2 r 0) :=
    broadcastTo_apply p2 broadcasts_S1024x1_S1024x2048 (ix2 r c) (ix2 r 0) (fun a => by
      match a with
      | ⟨0, _⟩ => show r.val = if (1024 : Nat) = 1 then 0 else r.val; rw [if_neg (by decide)]
      | ⟨1, _⟩ => show 0 = if (1 : Nat) = 1 then 0 else c.val; rw [if_pos rfl])
  have e2 : broadcastTo S1024x2048 t2 broadcasts_S1x2048_S1024x2048 (ix2 r c) = t2 (ix2 0 c) :=
    broadcastTo_apply t2 broadcasts_S1x2048_S1024x2048 (ix2 r c) (ix2 0 c) (fun a => by
      match a with
      | ⟨0, _⟩ => show 0 = if (1 : Nat) = 1 then 0 else r.val; rw [if_pos rfl]
      | ⟨1, _⟩ => show c.val = if (2048 : Nat) = 1 then 0 else c.val; rw [if_neg (by decide)])
  show Ideal.sqrt (max ((broadcastTo S1024x2048 p2 broadcasts_S1024x1_S1024x2048 (ix2 r c)
      + broadcastTo S1024x2048 t2 broadcasts_S1x2048_S1024x2048 (ix2 r c)) - two * cr (ix2 r c)) zero) = _
  rw [e1, e2]

/-- The tile's total is the double sum over the tile. -/
theorem tot_apply (v27 : V S1024x2048) : tot v27 (ix2 0 0) = ∑ r : Fin 1024, ∑ c : Fin 2048, v27 (ix2 r c) := by
  unfold tot
  refine (shapeCast_apply _ shapeCasts_S1_S1x1 (ix2 0 0) (ix1 0) (by
    rw [Shape.rowMajor_val_one, Shape.rowMajor_val_two]; rfl)).trans ?_
  refine (Ideal.multiReduction_add_single _ 0x00000000#32 reduces_S1024x1_S1 (.inl rfl) rfl (ix1 0)).trans ?_
  refine Finset.sum_congr rfl fun r _ => ?_
  refine (shapeCast_apply _ shapeCasts_S1024_S1024x1 _ (ix1 r) (by
    rw [Shape.rowMajor_val_one, Shape.rowMajor_val_two]
    show r.val = r.val * 1 + 0
    omega)).trans ?_
  refine (Ideal.multiReduction_add_single v27 0x00000000#32 reduces_S1024x2048_S1024 (.inl rfl) rfl (ix1 r)).trans ?_
  refine Finset.sum_congr rfl fun c _ => ?_
  exact congrArg v27 (funext fun a => Fin.ext (by match a with | ⟨0, _⟩ => rfl | ⟨1, _⟩ => rfl))

/-! ## The two payloads as numbers -/

/-- The new running sum is the old one plus the tile's total. -/
theorem pay4_apply (x0 : V S1x1024x3) (x1 : V S1x2048x3) (a : V S1x1) :
    Gen.k0_pay4 (F := Ideal) x0 x1 a (ix2 0 0) = a (ix2 0 0) + blockSum x0 x1 := by
  rw [pay4_eq]
  show a (ix2 0 0) + tot _ (ix2 0 0) = _
  rw [tot_apply]
  unfold blockSum
  refine congrArg (a (ix2 0 0) + ·) (Finset.sum_congr rfl fun r _ => Finset.sum_congr rfl fun c _ => ?_)
  rw [dists_apply, rowSq_apply, colSq_apply, cross_apply]
  simp only [rows3_apply, cols3_apply]

/-- The stored running sum is the computed one (a cast to the same shape). -/
theorem pay1_eq (v : V S1x1) : Gen.k0_pay1 (F := Ideal) v = v := shapeCast_self v shapeCasts_S1x1_S1x1

/-- The reset value is zero. -/
theorem pay3_apply (y : S1x1.Idx) : Gen.k0_pay3 (F := Ideal) y = zero := by
  unfold Gen.k0_pay3
  rw [shapeCast_self]
  rfl

/-- The written block holds (running sum) · 2⁻²⁶ on every lane. -/
theorem pay2_apply (v : V S1x1) (l : Fin 128) :
    Gen.k0_pay2 (F := Ideal) v (ix3 0 0 l) = v (ix2 0 0) * Ideal.ofBits .f32 0x32800000#32 := by
  unfold Gen.k0_pay2
  refine (broadcastTo_apply _ broadcasts_S1x1x1_S1x1x128 (ix3 0 0 l) (ix3 0 0 0) (fun a => by
    match a with
    | ⟨0, _⟩ => show 0 = if (1 : Nat) = 1 then 0 else 0; rw [if_pos rfl]
    | ⟨1, _⟩ => show 0 = if (1 : Nat) = 1 then 0 else 0; rw [if_pos rfl]
    | ⟨2, _⟩ => show 0 = if (1 : Nat) = 1 then 0 else l.val; rw [if_pos rfl])).trans ?_
  refine (shapeCast_apply _ shapeCasts_S1x1_S1x1x1 (ix3 0 0 0) (ix2 0 0) (by
    rw [Shape.rowMajor_val_three, Shape.rowMajor_val_two]; rfl)).trans ?_
  rfl

end Cert.KernelIdeal.Pay

end
-- ==== Proof.KernelValue.lean ====
/-
  What the kernel's result holds at the end: for each batch, (0 + the batch's total of distances) · 2⁻²⁶.

  The grid has 128 points: point t works on batch t / 32, row tile (t / 4) mod 8 and column tile t mod 4.  The running sum
  in the scratch cell is reset at the points ≡ 0 (mod 32) and grows by the visited tile's total at every point, so after point t
  it is  0 + ∑_{s ≤ t mod 32} (total of the tile visited at point t - t mod 32 + s)  — by induction on the point.  At the points
  ≡ 31 (mod 32) all 32 tiles of the batch have been added: the cell is 0 + the batch's total, and the block written there,
  block (t / 32, 0, 0) of the [4, 1, 128] result array, holds that times 2⁻²⁶ on every lane.  These four blocks tile the array.
  The lines after the call take lane 0 of each batch.
-/
import proofs.«118848_j45844480917997_1_alg».proof.Proof.Gen.KernelIdeal.Frame
import proofs.«118848_j45844480917997_1_alg».proof.Proof.Pieces
import proofs.«118848_j45844480917997_1_alg».proof.Proof.Payload
import Idealize.ShloMosaic.Lib.Pipeline.Value
import Idealize.ShloMosaic.Lib.StableHlo.Run
import Idealize.ShloMosaic.Lib.Tactic

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx Cert.PairDist
open Idealize.ShloMosaic.Pipeline (Dat)

variable (m : (ℓ : Loc nD τ sig) → Buf (Elt Ideal) ℓ) (ρ : Dev nD → PrngReg)

/-- The two point arrays, and the two blocks of points read at grid point t. -/
abbrev parr (c : Dev nD) : Pts := m ((c : Thread nD τ).loc main_arg0)
abbrev tarr (c : Dev nD) : Pts := m ((c : Thread nD τ).loc main_arg1)
abbrev pblk (c : Dev nD) (t : Fin cfg0.N) : Pay.V S1x1024x3 := iblk m c 0 t
abbrev tblk (c : Dev nD) (t : Fin cfg0.N) : Pay.V S1x2048x3 := iblk m c 1 t

/-! ## Which rows a grid point reads -/

theorem idx0 : ∀ t : Fin cfg0.N, win0_0.index t 0 = t.val / 32 ∧ win0_0.index t 1 = t.val / 4 % 8 ∧ win0_0.index t 2 = 0 :=
  (by decide +kernel : ∀ t : Fin grid0.N, win0_0.index t 0 = t.val / 32 ∧ win0_0.index t 1 = t.val / 4 % 8 ∧ win0_0.index t 2 = 0)
theorem idx1 : ∀ t : Fin cfg0.N, win0_1.index t 0 = t.val / 32 ∧ win0_1.index t 1 = t.val % 4 ∧ win0_1.index t 2 = 0 :=
  (by decide +kernel : ∀ t : Fin grid0.N, win0_1.index t 0 = t.val / 32 ∧ win0_1.index t 1 = t.val % 4 ∧ win0_1.index t 2 = 0)
theorem idx2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- The first block is rows 1024·((t / 4) mod 8) … of batch t / 32 of the first cloud. -/
theorem pblk_apply (c : Dev nD) (t : Fin cfg0.N) (r : Fin 1024) (d : Fin 3) :
    pblk m c t (ix3 0 r d)
      = parr m c (ix3 ⟨t.val / 32 % 4, Nat.mod_lt _ (by norm_num)⟩ (rowOf ⟨t.val / 4 % 8, Nat.mod_lt _ (by norm_num)⟩ r) d) := by
  have hN : t.val < 128 := lt_of_lt_of_eq t.isLt (show cfg0.N = 128 from N_0)
  obtain ⟨i0, i1, i2⟩ := idx0 t
  unfold pblk iblk
  rw [View.read_apply]
  show V m c main_arg0 _ = m ((c : Thread nD τ).loc main_arg0) _
  unfold V
  congr 1
  funext a
  apply Fin.ext
  match a with
  | ⟨0, _⟩ => show win0_0.index t 0 * 1 + 1 * 0 = t.val / 32 % 4; rw [i0]; omega
  | ⟨1, _⟩ => show win0_0.index t 1 * 1024 + 1 * r.val = 1024 * (t.val / 4 % 8) + r.val; rw [i1]; omega
  | ⟨2, _⟩ => show win0_0.index t 2 * 3 + 1 * d.val = d.val; rw [i2]; omega

/-- The second block is rows 2048·(t mod 4) … of batch t / 32 of the second cloud. -/
theorem tblk_apply (c : Dev nD) (t : Fin cfg0.N) (q : Fin 2048) (d : Fin 3) :
    tblk m c t (ix3 0 q d)
      = tarr m c (ix3 ⟨t.val / 32 % 4, Nat.mod_lt _ (by norm_num)⟩ (colOf ⟨t.val % 4, Nat.mod_lt _ (by norm_num)⟩ q) d) := by
  have hN : t.val < 128 := lt_of_lt_of_eq t.isLt (show cfg0.N = 128 from N_0)
  obtain ⟨i0, i1, i2⟩ := idx1 t
  unfold tblk iblk
  rw [View.read_apply]
  show V m c main_arg1 _ = m ((c : Thread nD τ).loc main_arg1) _
  unfold V
  congr 1
  funext a
  apply Fin.ext
  match a with
  | ⟨0, _⟩ => show win0_1.index t 0 * 1 + 1 * 0 = t.val / 32 % 4; rw [i0]; omega
  | ⟨1, _⟩ => show win0_1.index t 1 * 2048 + 1 * q.val = 2048 * (t.val % 4) + q.val; rw [i1]; omega
  | ⟨2, _⟩ => show win0_1.index t 2 * 3 + 1 * d.val = d.val; rw [i2]; omega

/-- So the tile total a point adds is the total of the tile it visits. -/
theorem blockSum_eq (c : Dev nD) (t : Fin cfg0.N) :
    blockSum (pblk m c t) (tblk m c t) = tileAt (parr m c) (tarr m c) t.val := by
  unfold tileAt
  exact blockSum_eq_tile (parr m c) (tarr m c) _ _ _ (pblk m c t) (tblk m c t) (pblk_apply m c t) (tblk_apply m c t)

/-! ## The running sum -/

/-- The scratch cell after grid point n. -/
def cell (c : Dev nD) (n : ℕ) (h : n < cfg0.N) : EReal := (outsAt0 m c n h).2 (ix2 0 0)

/-- At the first point of a batch: zero plus the tile's total. -/
theorem cell_first (c : Dev nD) (n : ℕ) (h : n < cfg0.N) (h0 : n % 32 = 0) :
    cell m c n h = zero + tileAt (parr m c) (tarr m c) n := by
  have h1 : ¬n % 32 = 31 := by omega
  rw [← blockSum_eq m c ⟨n, h⟩]
  show (outsAt0 m c (⟨n, h⟩ : Fin cfg0.N).val (⟨n, h⟩ : Fin cfg0.N).isLt).2 (ix2 0 0) = _
  rw [outsAt0_A m c ⟨n, h⟩ h0 h1]
  dsimp only
  refine (congrFun (Pieces.cell_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩)) (ix2 0 0)).trans ?_
  rw [Pay.pay1_eq]
  refine (Pay.pay4_apply (pblk m c ⟨n, h⟩) (tblk m c ⟨n, h⟩) (k0_pay3 (F := Ideal))).trans ?_
  rw [Pay.pay3_apply]

/-- At any later point of a batch: what the point before left plus the tile's total. -/
theorem cell_next (c : Dev nD) (n : ℕ) (h : n + 1 < cfg0.N) (h0 : ¬(n + 1) % 32 = 0) :
    cell m c (n + 1) h = cell m c n (Nat.lt_of_succ_lt h) + tileAt (parr m c) (tarr m c) (n + 1) := by
  rw [← blockSum_eq m c ⟨n + 1, h⟩]
  show (outsAt0 m c (⟨n + 1, h⟩ : Fin cfg0.N).val (⟨n + 1, h⟩ : Fin cfg0.N).isLt).2 (ix2 0 0)
    = (outsAt0 m c ((⟨n + 1, h⟩ : Fin cfg0.N).val - 1) (Nat.lt_of_le_of_lt (Nat.sub_le _ _) (⟨n + 1, h⟩ : Fin cfg0.N).isLt)).2 (ix2 0 0) + _
  by_cases h1 : (n + 1) % 32 = 31
  · rw [outsAt0_C m c ⟨n + 1, h⟩ h0 h1]
    dsimp only
    refine (congrFun (Pieces.cell_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩)
      (outsAt0 m c ((⟨n + 1, h⟩ : Fin cfg0.N).val - 1) (Nat.lt_of_le_of_lt (Nat.sub_le _ _) (⟨n + 1, h⟩ : Fin cfg0.N).isLt)).2) (ix2 0 0)).trans ?_
    rw [Pay.pay1_eq]
    exact Pay.pay4_apply (pblk m c ⟨n + 1, h⟩) (tblk m c ⟨n + 1, h⟩) _
  · rw [outsAt0_B m c ⟨n + 1, h⟩ h0 h1]
    dsimp only
    refine (congrFun (Pieces.cell_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) scM0_0 (Memref.isWhole_whole _) (fun hh => h0 ((hcond0_0 ⟨n + 1, h⟩).mp hh)) (fun hh => h1 ((hcond0_1 ⟨n + 1, h⟩).mp hh))
      (iblk m c 0 ⟨n + 1, h⟩) (iblk m c 1 ⟨n + 1, h⟩)
      (outsAt0 m c ((⟨n + 1, h⟩ : Fin cfg0.N).val - 1) (Nat.lt_of_le_of_lt (Nat.sub_le _ _) (⟨n + 1, h⟩ : Fin cfg0.N).isLt)).2) (ix2 0 0)).trans ?_
    rw [Pay.pay1_eq]
    exact Pay.pay4_apply (pblk m c ⟨n + 1, h⟩) (tblk m c ⟨n + 1, h⟩) _

/-- The running sum after point n: zero plus the totals of the tiles visited since the batch's first point. -/
theorem cell_eq (c : Dev nD) : ∀ (n : ℕ) (h : n < cfg0.N),
    cell m c n h = zero + ∑ s ∈ Finset.range (n % 32 + 1), tileAt (parr m c) (tarr m c) (n - n % 32 + s)
  | 0, h => by
    rw [cell_first m c 0 h rfl]
    simp
  | n + 1, h => by
    by_cases h0 : (n + 1) % 32 = 0
    · rw [cell_first m c (n + 1) h h0, h0]
      simp
    · rw [cell_next m c n h h0, cell_eq c n (Nat.lt_of_succ_lt h)]
      have e1 : (n + 1) % 32 = n % 32 + 1 := by omega
      have e2 : n + 1 - (n % 32 + 1) = n - n % 32 := by omega
      have e3 : n - n % 32 + (n % 32 + 1) = n + 1 := by omega
      rw [e1, e2, Finset.sum_range_succ _ (n % 32 + 1), e3, add_assoc]

/-- After the last point of batch b the cell holds zero plus the batch's total. -/
theorem cell_last (c : Dev nD) (n : ℕ) (h : n < cfg0.N) (h31 : n % 32 = 31) :
    cell m c n h = zero + total (parr m c) (tarr m c) ⟨n / 32 % 4, Nat.mod_lt _ (by norm_num)⟩ := by
  have hN : n < 128 := lt_of_lt_of_eq h (show cfg0.N = 128 from N_0)
  rw [cell_eq m c n h, h31, ← sum_points]
  refine congrArg (zero + ·) (Finset.sum_congr rfl fun s _ => ?_)
  congr 1
  show n - 31 + s = 32 * (n / 32 % 4) + s
  omega

/-- The block written at the last point of a batch: (the cell) · 2⁻²⁶ on every lane. -/
theorem block_last (c : Dev nD) (t : Fin cfg0.N) (h31 : t.val % 32 = 31) (l : Fin 128) :
    (outsAt0 m c t.val t.isLt).1 (ix3 0 0 l) = cell m c t.val t.isLt * Ideal.ofBits .f32 0x32800000#32 := by
  have h0 : ¬t.val % 32 = 0 := by omega
  unfold cell
  rw [outsAt0_C m c t h0 h31]
  dsimp only
  rw [Pieces.cell_C (F := Ideal) c (grid0.coords t) (ms0_0 t) (hs0_0 t) (ms0_1 t) (hs0_1 t)
      (ms0_2 t) (hs0_2 t) scM0_0 (Memref.isWhole_whole _) (fun hh => h0 ((hcond0_0 t).mp hh)) ((hcond0_1 t).mpr h31)
      (iblk m c 0 t) (iblk m c 1 t) (outsAt0 m c (t.val - 1) (Nat.lt_of_le_of_lt (Nat.sub_le _ _) t.isLt)).2]
  refine (congrFun (Pieces.block_C (F := Ideal) c (grid0.coords t) (ms0_0 t) (hs0_0 t) (ms0_1 t) (hs0_1 t)
      (ms0_2 t) (hs0_2 t) scM0_0 (Memref.isWhole_whole _) (fun hh => h0 ((hcond0_0 t).mp hh)) ((hcond0_1 t).mpr h31)
      (iblk m c 0 t) (iblk m c 1 t) (outsAt0 m c (t.val - 1) (Nat.lt_of_le_of_lt (Nat.sub_le _ _) t.isLt)).2) (ix3 0 0 l)).trans ?_
  exact Pay.pay2_apply _ l

end Cert.KernelIdeal.KValue

end
-- ==== Proof.KernelResult.lean ====
/-
  The kernel's run, read: its result holds, for each batch, (0 + the batch's total of distances) · 2⁻²⁶.

  The [4, 1, 128] array the call writes is written back only at the last point of each batch, block (b, 0, 0) at point
  32·b + 31, every lane of which holds (0 + total of batch b) · 2⁻²⁶; the four blocks tile the array.  The two lines after the
  call cut out lane 0 of each batch and drop the unit axes, so the result at b is that number.
-/
import proofs.«118848_j45844480917997_1_alg».proof.Proof.KernelValue

noncomputable section

open scoped BigOperators

namespace Cert.KernelIdeal.KResult

open Cert.KernelIdeal Cert.KernelIdeal.Gen Idealize.ShloMosaic Idealize.ShloMosaic.TcCoe Idealize.SL.Sem
open Idealize.ShloMosaic.ValueIdx Cert.PairDist Cert.KernelIdeal.KValue
open Idealize.ShloMosaic.Pipeline (Dat)

variable (m : (ℓ : Loc nD τ sig) → Buf (Elt Ideal) ℓ) (ρ : Dev nD → PrngReg)

/-- The mean of batch b as the kernel computes it. -/
def mean (c : Dev nD) (b : Fin 4) : EReal :=
  (zero + total (parr m c) (tarr m c) b) * Ideal.ofBits .f32 0x32800000#32

/-- The array the call leaves: the batch's mean on every lane. -/
def outArr (c : Dev nD) : Buf (Elt Ideal) ((c : Thread nD τ).loc main_v0) :=
  fun (y : S4x1x128.Idx) => mean m c ⟨(y 0).val, (y 0).isLt⟩

theorem xs2 : ∀ t : Fin cfg0.N, win0_2.xsize (grid0.coords t) 0 = 1 ∧ win0_2.xsize (grid0.coords t) 1 = 1 ∧ win0_2.xsize (grid0.coords t) 2 = 128 :=
  (by decide +kernel : ∀ t : Fin grid0.N, win0_2.xsize (grid0.coords t) 0 = 1 ∧ win0_2.xsize (grid0.coords t) 1 = 1 ∧ win0_2.xsize (grid0.coords t) 2 = 128)

/-- What the last point of a batch writes back is its block of that array. -/
theorem flushed_eq (c : Dev nD) (t : Fin cfg0.N) (hf : (cfg0.win 2).flush t = true) :
    (dats m 0 c).flushed 2 t = ((cfg0.win 2).blk t).view.read (Elt Ideal) (outArr m c) := by
  have hN : t.val < 128 := lt_of_lt_of_eq t.isLt (show cfg0.N = 128 from N_0)
  have h31 : t.val % 32 = 31 := (flush0_2 t).mp hf
  obtain ⟨i0, i1, i2⟩ := idx2 t
  show (cfg0.win 2).cut (grid0.coords t) ((dats m 0 c).after 2 t) = _
  rw [after0_2]
  funext y
  rw [View.read_apply]
  have h0 : (y 0).val < 1 := (y 0).isLt
  have h1 : (y 1).val < 1 := (y 1).isLt
  have h2 : (y 2).val < 128 := (y 2).isLt
  have e : (cfg0.win 2).xinj (grid0.coords t) y = ix3 0 0 ⟨(y 2).val, h2⟩ := funext fun a => Fin.ext (by
    match a with
    | ⟨0, _⟩ => show (y 0).val = 0; omega
    | ⟨1, _⟩ => show (y 1).val = 0; omega
    | ⟨2, _⟩ => rfl)
  show (outsAt0 m c t.val t.isLt).1 ((cfg0.win 2).xinj (grid0.coords t) y) = outArr m c _
  rw [e, block_last m c t h31, cell_last m c t.val t.isLt h31]
  unfold outArr mean
  congr 3
  apply Fin.ext
  show t.val / 32 % 4 = win0_2.index t 0 * 1 + 1 * (y 0).val
  rw [i0]; omega

/-- Every entry of the array lies in the block written at the last point of its batch. -/
theorem cover (i : S4x1x128.Idx) :
    ∃ t : Fin cfg0.N, (cfg0.win 2).flush t = true ∧ i ∈ ((cfg0.win 2).blk t).view.set := by
  have hi0 : (i 0).val < 4 := (i 0).isLt
  have hi1 : (i 1).val < 1 := (i 1).isLt
  have hi2 : (i 2).val < 128 := (i 2).isLt
  have hlt : 32 * (i 0).val + 31 < cfg0.N := by rw [show cfg0.N = 128 from N_0]; omega
  obtain ⟨j0, j1, j2⟩ := idx2 ⟨32 * (i 0).val + 31, hlt⟩
  obtain ⟨x0, x1, x2⟩ := xs2 ⟨32 * (i 0).val + 31, hlt⟩
  refine ⟨⟨32 * (i 0).val + 31, hlt⟩, (flush0_2 _).mpr (by show (32 * (i 0).val + 31) % 32 = 31; omega), ?_⟩
  show i ∈ ((View.whole main_v0).slice (win0_2.rect ⟨32 * (i 0).val + 31, hlt⟩)).set
  rw [View.set_slice_whole, Rect.mem_set_unit]
  intro a
  match a with
  | ⟨0, _⟩ =>
    show win0_2.index ⟨32 * (i 0).val + 31, hlt⟩ 0 * 1 ≤ (i 0 : Nat) ∧ (i 0 : Nat) < win0_2.index ⟨32 * (i 0).val + 31, hlt⟩ 0 * 1 + win0_2.xsize (grid0.coords ⟨32 * (i 0).val + 31, hlt⟩) 0
    rw [j0, x0]; dsimp only; omega
  | ⟨1, _⟩ =>
    show win0_2.index ⟨32 * (i 0).val + 31, hlt⟩ 1 * 1 ≤ (i 1 : Nat) ∧ (i 1 : Nat) < win0_2.index ⟨32 * (i 0).val + 31, hlt⟩ 1 * 1 + win0_2.xsize (grid0.coords ⟨32 * (i 0).val + 31, hlt⟩) 1
    rw [j1, x1]; omega
  | ⟨2, _⟩ =>
    show win0_2.index ⟨32 * (i 0).val + 31, hlt⟩ 2 * 128 ≤ (i 2 : Nat) ∧ (i 2 : Nat) < win0_2.index ⟨32 * (i 0).val + 31, hlt⟩ 2 * 128 + win0_2.xsize (grid0.coords ⟨32 * (i 0).val + 31, hlt⟩) 2
    rw [j2, x2]; omega

/-- So the array ends holding the means. -/
theorem final (c : Dev nD) : (dats m 0 c).arrAt 2 cfg0.N = outArr m c :=
  (dats m 0 c).arrAt_eq_of_cover 2 (outArr m c) (flushed_eq m c) cover

/-- Lane 0 of each batch, with the unit axes dropped. -/
theorem lane0 (A : S4x1x128.Idx → EReal) (b : Fin 4) :
    shapeCast S4 (extractStridedSlice S4x1x1 ![0, 0, 0] A slices_S4x1x128_S4x1x1_0_0_0) shapeCasts_S4x1x1_S4 (ix1 b) = A (ix3 b 0 0) := by
  refine (shapeCast_apply _ shapeCasts_S4x1x1_S4 (ix1 b) (ix3 b 0 0) (by
    rw [Shape.rowMajor_val_three, Shape.rowMajor_val_one]
    show (b.val * 1 + 0) * 1 + 0 = b.val
    omega)).trans ?_
  exact extractStridedSlice_apply ![0, 0, 0] A slices_S4x1x128_S4x1x1_0_0_0 (ix3 b 0 0) (ix3 b 0 0) (fun a => by
    match a with
    | ⟨0, _⟩ => show b.val = 0 + b.val; omega
    | ⟨1, _⟩ => rfl
    | ⟨2, _⟩ => rfl)

/-- The result after the two lines that follow the call: the batch's mean. -/
theorem tail_eq (c : Dev nD) :
    Pipeline.afterTail₀ cfgs (dats m) 0 (V0 m) [hostOps1] c main_v2 = (fun y => mean m c ⟨(y 0).val, (y 0).isLt⟩ : S4.Idx → EReal) := by
  unfold Pipeline.afterTail₀
  show StableHlo.after hostOps1 _ (Proc.devRef .tc main_v2) = _
  after_results
  funext y
  obtain ⟨b, rfl⟩ : ∃ b : Fin 4, y = ix1 b := ⟨y 0, eq_ix1 y⟩
  show shapeCast S4 (extractStridedSlice S4x1x1 ![0, 0, 0]
      (Pipeline.withArrays (cfgs 0).spec c (V0 m c) (fun w => (dats m 0 c).arrAt w (cfgs 0).N) (Proc.devRef .tc main_v0))
      slices_S4x1x128_S4x1x1_0_0_0) shapeCasts_S4x1x1_S4 (ix1 b) = _
  rw [show Pipeline.withArrays (cfgs 0).spec c (V0 m c) (fun w => (dats m 0 c).arrAt w (cfgs 0).N) (Proc.devRef .tc main_v0) = outArr m c from
    (Pipeline.withArrays_arr spec0 launch0.win.arr_inj c _ _ 2).trans (final m c)]
  exact lane0 (outArr m c) b

/-- The run, read: the result at the batches' means, the arguments unchanged. -/
theorem run : θ_run defs (onTc (τ := τ) (main (F := Ideal))) ⟨m, fun _ => 0, ρ⟩ fun r => ∀ c : Dev nD,
      r.2.mem ((c.tc : Thread nD τ).loc main_v2) = (fun y => mean m c ⟨(y 0).val, (y 0).isLt⟩ : S4.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KResult

end
-- ==== Proof.RefSide.lean ====
/-
  The reference's result at a batch, as a number: (0 + the batch's total of distances) / 2²⁶.

  The reference computes, for all 4 · 8192 · 8192 triples (b, n, m) at once, sqrt (max ((|p_n|² + |t_m|²) - 2 · ⟨p_n, t_m⟩) 0) —
  the squared norms by a sum over the coordinate axis from 0, the inner products by a batched product contracting the
  coordinate axis — then sums over both point axes from 0 and divides by 2²⁶.  The sum over two axes at once is the
  double sum: the triples whose batch is b are exactly the (b, n, m).
-/
import proofs.«118848_j45844480917997_1_alg».proof.Proof.Gen.ReferenceIdeal.Run
import proofs.«118848_j45844480917997_1_alg».proof.Proof.Gen.ReferenceIdeal.Read
import proofs.«118848_j45844480917997_1_alg».proof.Proof.Spec

noncomputable section

open scoped BigOperators

namespace Cert.ReferenceIdeal.RefValue

open Cert.ReferenceIdeal Cert.ReferenceIdeal.Read Idealize.ShloMosaic Idealize.ShloMosaic.ValueIdx Cert.PairDist
open Cert.ReferenceIdeal.Facts₀

/-- One distance, as the reference computes it, is `dist`. -/
theorem dist_apply (x0 x1 : Pts) (b : Fin 4) (n m : Fin 8192) :
    val_main_v15 (F := Ideal) x0 x1 (ix3 b n m) = dist x0 x1 b n m := by
  have e1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have e2 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have e3 : ∀ k : Fin 3, lidx_main_v4 (ix3 b n m) k = ix3 b n k := fun k =>
    funext fun a => Fin.ext (by match a with | ⟨0, _⟩ => rfl | ⟨1, _⟩ => rfl | ⟨2, _⟩ => rfl)
  have e4 : ∀ k : Fin 3, ridx_main_v4 (ix3 b n m) k = ix3 b m k := fun k =>
    funext fun a => Fin.ext (by match a with | ⟨0, _⟩ => rfl | ⟨1, _⟩ => rfl | ⟨2, _⟩ => rfl)
  rw [val_main_v15_apply, val_main_v14_apply, val_main_v13_apply, val_main_cst_2_apply, val_main_v12_apply,
    val_main_v9_apply, val_main_v7_apply, val_main_v5_apply, val_main_v1_apply, val_main_v8_apply, val_main_v6_apply,
    val_main_v3_apply, val_main_v11_apply, val_main_v10_apply, val_main_cst_1_apply, val_main_v4_apply]
  simp only [val_main_v0_apply, val_main_v2_apply, val_main_cst_apply, val_main_cst_0_apply, e1, e2, e3, e4,
    Ideal.hostUnary_sqrt_def, Ideal.maximumf_def, Ideal.subf_def, Ideal.addf_def, Ideal.mulf_def, Ideal.ofBits_def,
    Ideal.ofBits_zero_f32, zero_add]
  unfold PairDist.dist
  simp only [Ideal.ofBits_zero_f32]

/-- The triples of batch b, summed: the double sum over the two point axes. -/
theorem sum_batch (y : S4x8192x8192.Idx → EReal) (b : Fin 4) :
    ∑ i ∈ Finset.univ.filter (fun i => reducesTo_S4x8192x8192_S4_d1_2.drop i = ix1 b), y i
      = ∑ n : Fin 8192, ∑ m : Fin 8192, y (ix3 b n m) := by
  rw [← Finset.sum_product' (s := (Finset.univ : Finset (Fin 8192))) (t := (Finset.univ : Finset (Fin 8192)))
    (f := fun n m => y (ix3 b n m))]
  have key : ∀ i : S4x8192x8192.Idx, reducesTo_S4x8192x8192_S4_d1_2.drop i = ix1 b →
      i = ix3 b (⟨(i 1).val, (i 1).isLt⟩ : Fin 8192) (⟨(i 2).val, (i 2).isLt⟩ : Fin 8192) := fun i hi => by
    have h0 : (i 0).val = b.val :=
      (Shape.ReducesTo.drop_apply_val_of_eq reducesTo_S4x8192x8192_S4_d1_2 i 0 0).symm.trans (congrArg Fin.val (congrFun hi 0))
    funext a
    match a with
    | ⟨0, _⟩ => exact Fin.ext h0
    | ⟨1, _⟩ => rfl
    | ⟨2, _⟩ => rfl
  refine Finset.sum_nbij' (fun i => ((⟨(i 1).val, (i 1).isLt⟩ : Fin 8192), (⟨(i 2).val, (i 2).isLt⟩ : Fin 8192)))
    (fun p => ix3 b p.1 p.2) ?_ ?_ ?_ ?_ ?_
  · intro i _; simp only [Finset.mem_product, Finset.mem_univ, and_self]
  · intro p _
    rw [Finset.mem_filter]
    refine ⟨Finset.mem_univ _, funext fun a => Fin.ext ?_⟩
    match a with
    | ⟨0, _⟩ => exact Shape.ReducesTo.drop_apply_val_of_eq reducesTo_S4x8192x8192_S4_d1_2 (ix3 b p.1 p.2) 0 0
  · intro i hi; exact (key i (Finset.mem_filter.mp hi).2).symm
  · intro p _; rfl
  · intro i hi; exact congrArg y (key i (Finset.mem_filter.mp hi).2)

/-- The reference's result at batch b. -/
theorem result_apply (x0 x1 : Pts) (b : Fin 4) :
    val_main_v18 (F := Ideal) x0 x1 (ix1 b) = Ideal.div (total x0 x1 b) (Ideal.ofBits .f32 0x4C800000#32) := by
  rw [val_main_v18_apply, val_main_v17_apply, val_main_cst_4_apply]
  unfold val_main_v16
  generalize hy : val_main_v15 (F := Ideal) x0 x1 = y
  simp only [Host.reduceAdd, Ideal.hostReduceAdd_def, Ideal.hostDivf_def, Ideal.ofBits_def]
  unfold Ideal.hostReduceAdd
  rw [sum_batch y b, val_main_cst_3_apply]
  simp only [Ideal.ofBits_def, Ideal.ofBits_zero_f32, zero_add]
  unfold total
  subst hy
  simp only [dist_apply]

end Cert.ReferenceIdeal.RefValue

end
-- ==== Proof.lean ====
/-
  The mean pairwise distance between two point clouds: the tiled kernel against the one-shot reference.

  For each of 4 batches the programs return the mean, over all 8192 × 8192 pairs (n, m), of
      sqrt (max ((|p_n|² + |t_m|²) - 2 · ⟨p_n, t_m⟩) 0).
  The reference forms all distances at once, sums them over both point axes and divides by 2²⁶.  The kernel walks a grid of
  4 × 8 × 4 points; at each it adds the total of one 1024 × 2048 tile of distances to a running sum it resets at the first
  point of a batch, and at the last point of a batch it writes (running sum) · 2⁻²⁶.

  Over the extended reals addition is commutative and associative, so the 32 tile totals of a batch add up to the batch's
  total in whatever order they are taken (Proof/Spec.lean); 0 + x = x; and multiplying by 2⁻²⁶ is dividing by 2²⁶ on every
  extended real, the infinities included.  A change of float format is the identity and the matrix product into a zero
  accumulator is the plain sum of products, so a tile's entries are the reference's (Proof/Payload.lean, Proof/RefSide.lean).
  No finiteness of the inputs is used.

  The kernel's result is read off its frame run point by point (Proof/Pieces.lean, Proof/KernelValue.lean,
  Proof/KernelResult.lean); the reference's off its run (Proof/RefSide.lean).
-/
import proofs.«118848_j45844480917997_1_alg».proof.Defs
import proofs.«118848_j45844480917997_1_alg».proof.Proof.Gen.Kernel
import proofs.«118848_j45844480917997_1_alg».proof.Proof.Gen.Kernel.Skeleton
import proofs.«118848_j45844480917997_1_alg».proof.Proof.Gen.Kernel.Launch
import proofs.«118848_j45844480917997_1_alg».proof.Proof.Gen.Kernel.Points
import proofs.«118848_j45844480917997_1_alg».proof.Proof.Gen.Kernel.Frame
import proofs.«118848_j45844480917997_1_alg».proof.Proof.Gen.KernelIdeal
import proofs.«118848_j45844480917997_1_alg».proof.Proof.Gen.KernelIdeal.Skeleton
import proofs.«118848_j45844480917997_1_alg».proof.Proof.Gen.KernelIdeal.Launch
import proofs.«118848_j45844480917997_1_alg».proof.Proof.Gen.KernelIdeal.Points
import proofs.«118848_j45844480917997_1_alg».proof.Proof.Gen.KernelIdeal.Frame
import proofs.«118848_j45844480917997_1_alg».proof.Proof.Gen.ReferenceIdeal
import proofs.«118848_j45844480917997_1_alg».proof.Proof.Gen.ReferenceIdeal.Run
import proofs.«118848_j45844480917997_1_alg».proof.Proof.Gen.ReferenceIdeal.Read
import proofs.«118848_j45844480917997_1_alg».proof.Proof.Gen.Pre_finite_inputs
import proofs.«118848_j45844480917997_1_alg».proof.Proof.KernelResult
import proofs.«118848_j45844480917997_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two means agree: (0 + total) · 2⁻²⁶ = total / 2²⁶. -/
theorem mean_eq (P T : Cert.PairDist.Pts) (b : Fin 4) :
    Ideal.div (Cert.PairDist.total P T b) (Ideal.ofBits .f32 0x4C800000#32)
      = (Cert.PairDist.zero + Cert.PairDist.total P T b) * Ideal.ofBits .f32 0x32800000#32 := by
  rw [Cert.PairDist.div_two26]
  simp only [Cert.PairDist.zero, Ideal.ofBits_zero_f32, zero_add]

/-- From memories agreeing on the two point arrays both programs end with the same mean for every batch. -/
theorem algebraic : Cert.algebraic_KernelIdeal_ReferenceIdeal := by
  intro m ρ m' ρ' _ hagree
  refine ⟨_, Cert.KernelIdeal.KResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, (hagree c).1, (hagree c).2]
  funext y
  obtain ⟨b, rfl⟩ : ∃ b : Fin 4, y = ix1 b := ⟨y 0, eq_ix1 y⟩
  refine (Cert.ReferenceIdeal.RefValue.result_apply _ _ b).trans ?_
  exact mean_eq _ _ b

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
